-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S32x128 : Shape := ⟨2, ![32, 128]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S32x128 : S_.BroadcastsInDim S32x128 (![] : Fin 0 → Fin S32x128.rank)
  reducesTo_S32x128_S_d0_1 : S32x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S600000x128 .f32) (main_arg3 : FVec F S32x128 .f32) (main_arg4 : IVec S50000 32) (main_arg5 : FVec F S256x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S32x128 : Shape := ⟨2, ![32, 128]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S2000x128 : Shape := ⟨2, ![2000, 128]⟩
abbrev S1x128 : Shape := ⟨2, ![1, 128]⟩

abbrev nBuf : Space → Nat
  | .hbm => 18
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S32x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S600000x1, .i32⟩
  | .hbm, ⟨14, _⟩ => ⟨S50000x128, .f32⟩
  | .hbm, ⟨15, _⟩ => ⟨S128x128, .f32⟩
  | .hbm, ⟨16, _⟩ => ⟨S128x128, .f32⟩
  | .hbm, ⟨17, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S32x128 : Shape := ⟨2, ![32, 128]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x256 : Shape := ⟨2, ![50000, 256]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S32x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S600000x1, .i32⟩
  | .hbm, ⟨14, _⟩ => ⟨S50000x128, .f32⟩
  | .hbm, ⟨15, _⟩ => ⟨S50000x256, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.MlpSpec.lean ====
/-
  The two-layer perceptron of one graph node, and the two elementary facts that let a kernel split its first layer.

  A node has 128 features of its own (`xr`) and 128 aggregated edge features (`ar`). The first layer multiplies the
  256 concatenated features by a 256 x 128 matrix, adds a bias and clips at zero; the second layer multiplies the 128
  hidden units by a 128 x 128 matrix and adds a bias. `mlpRow` is that function written with the first matrix ALREADY
  cut into its upper half `Wa` (the rows meeting the node's own features) and its lower half `Wb` (the rows meeting
  the aggregated features):

    hiddenUnit k = max (sum_j xr j * Wa[j,k] + sum_j ar j * Wb[j,k] + b1[k]) 0
    mlpRow q     = sum_k hiddenUnit k * W2[k,q] + b2[q]

  The facts: a sum over 256 indices is the sum over the first 128 plus the sum over the last 128 (`sum_halves`; only
  associativity and commutativity of addition, so it holds on the extended reals with no finiteness assumption), and a
  row of two matrices joined side by side reads the first matrix on columns below 128 and the second from 128 on
  (`joined_left`, `joined_right`).
-/
import Idealize.ShloMosaic.PureOps.Ideal
import Idealize.ShloMosaic.Lib.ValueIdx
import Idealize.ShloMosaic.Lib.Pipeline.Value
import Mathlib.Algebra.BigOperators.Fin

noncomputable section

open scoped BigOperators
open Idealize.ShloMosaic Idealize.ShloMosaic.ValueIdx

namespace Cert.MlpSpec

abbrev Nodes : Shape := ⟨2, ![50000, 128]⟩
abbrev Joined : Shape := ⟨2, ![50000, 256]⟩
abbrev Mat128 : Shape := ⟨2, ![128, 128]⟩
abbrev Mat256 : Shape := ⟨2, ![256, 128]⟩
abbrev Vec128 : Shape := ⟨1, ![128]⟩

/-- Hidden unit `k` of a node: both halves of the first layer, the bias, clipped at zero (the zero is the f32 word
    `0x00000000`, kept as the word: both programs compare with that same word). -/
def hiddenUnit (xr ar : Fin 128 → EReal) (Wa Wb : Mat128.Idx → EReal) (b1 : Vec128.Idx → EReal) (k : Fin 128) : EReal :=
  max ((∑ j : Fin 128, xr j * Wa (ix2 j k)) + (∑ j : Fin 128, ar j * Wb (ix2 j k)) + b1 (ix1 k))
    (Ideal.ofBits .f32 0x00000000#32)

/-- Output unit `q` of a node: the second layer over the hidden units. -/
def mlpRow (xr ar : Fin 128 → EReal) (Wa Wb : Mat128.Idx → EReal) (b1 : Vec128.Idx → EReal)
    (W2 : Mat128.Idx → EReal) (b2 : Vec128.Idx → EReal) (q : Fin 128) : EReal :=
  (∑ k : Fin 128, hiddenUnit xr ar Wa Wb b1 k * W2 (ix2 k q)) + b2 (ix1 q)

/-- Rows 0 … 127 of a 256-row matrix. -/
def topHalf (W : Mat256.Idx → EReal) : Mat128.Idx → EReal :=
  fun i => W (ix2 (⟨(i 0).val, Nat.lt_trans (idx2_lt0 i) (by decide)⟩ : Fin 256) (⟨(i 1).val, idx2_lt1 i⟩ : Fin 128))

/-- Rows 128 … 255 of a 256-row matrix. -/
def botHalf (W : Mat256.Idx → EReal) : Mat128.Idx → EReal :=
  fun i => W (ix2 (⟨128 + (i 0).val, by have := idx2_lt0 i; omega⟩ : Fin 256) (⟨(i 1).val, idx2_lt1 i⟩ : Fin 128))

/-- The perceptron over a whole array of nodes: row r of the result is `mlpRow` of row r of the node features `x` and
    of the aggregated features `agg`, the first weight matrix `W1` given whole and cut into its halves here. -/
def mlp (x agg : Nodes.Idx → EReal) (W1 : Mat256.Idx → EReal) (b1 : Vec128.Idx → EReal)
    (W2 : Mat128.Idx → EReal) (b2 : Vec128.Idx → EReal) : Nodes.Idx → EReal :=
  fun i => mlpRow (fun j => x (ix2 (⟨(i 0).val, idx2_lt0 i⟩ : Fin 50000) j)) (fun j => agg (ix2 (⟨(i 0).val, idx2_lt0 i⟩ : Fin 50000) j))
    (topHalf W1) (botHalf W1) b1 W2 b2 (⟨(i 1).val, idx2_lt1 i⟩ : Fin 128)

theorem mlp_ix2 (x agg : Nodes.Idx → EReal) (W1 : Mat256.Idx → EReal) (b1 : Vec128.Idx → EReal)
    (W2 : Mat128.Idx → EReal) (b2 : Vec128.Idx → EReal) (r : Fin 50000) (q : Fin 128) :
    mlp x agg W1 b1 W2 b2 (ix2 r q)
      = mlpRow (fun j => x (ix2 r j)) (fun j => agg (ix2 r j)) (topHalf W1) (botHalf W1) b1 W2 b2 q := rfl

/-- A sum over 256 indices, cut in the middle. -/
theorem sum_halves (f : Fin 256 → EReal) :
    ∑ k : Fin 256, f k
      = (∑ j : Fin 128, f ⟨j.val, Nat.lt_trans j.isLt (by decide)⟩) + ∑ j : Fin 128, f ⟨128 + j.val, by have := j.isLt; omega⟩ :=
  Fin.sum_univ_add (a := 128) (b := 128) f

variable {α : Type}

/-- Two node arrays joined side by side, read at a column below 128: the first array. -/
theorem joined_left (x y : Nodes.Idx → α) (h : Shape.Concatenates [Nodes, Nodes] Joined 1) (J : Joined.Idx)
    (r : Fin 50000) (j : Fin 128) (h0 : (J 0).val = r.val) (h1 : (J 1).val = j.val) :
    concatenate Joined 1 [⟨Nodes, x⟩, ⟨Nodes, y⟩] h J = x (ix2 r j) :=
  concatenate_pair_apply_left (1 : Fin Joined.rank) x y h J rfl (ix2 r j) fun b => by
    match b with
    | ⟨0, _⟩ => exact h0.symm
    | ⟨1, _⟩ => exact h1.symm

/-- … and at a column from 128 on: the second array, 128 columns to the left. -/
theorem joined_right (x y : Nodes.Idx → α) (h : Shape.Concatenates [Nodes, Nodes] Joined 1) (J : Joined.Idx)
    (r : Fin 50000) (j : Fin 128) (h0 : (J 0).val = r.val) (h1 : (J 1).val = 128 + j.val) :
    concatenate Joined 1 [⟨Nodes, x⟩, ⟨Nodes, y⟩] h J = y (ix2 r j) :=
  concatenate_pair_apply_right (1 : Fin Joined.rank) x y h J rfl rfl (ix2 r j)
    (fun b hb => by
      match b with
      | ⟨0, _⟩ => exact h0.symm
      | ⟨1, _⟩ => exact absurd rfl hb)
    (by show j.val + 128 = (J 1).val; omega)

end Cert.MlpSpec

end
-- ==== Proof.BodyMlp.lean ====
/-
  What the kernel body stores, entry by entry.

  The body loads a block of 2000 node rows `v0`, the matching block of aggregated rows `v2`, the two halves `v5`,
  `v8` of the first weight matrix, the first bias `v14`, the second weight matrix `v21` and the second bias `v24`,
  and stores one 2000 x 128 block. Read on the extended reals the changes of float format are the identity and a matrix
  product into a zero accumulator is the plain sum of products over the 128 contracted indices (`matmul_at`), so the
  stored entry (p, q) is the perceptron `mlpRow` of row p of the two node blocks (`pay_apply`).
-/
import proofs.«134898_j824633721180_1_alg».proof.Proof.Gen.KernelIdeal.Skeleton
import proofs.«134898_j824633721180_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Body

open Cert.KernelIdeal Cert.KernelIdeal.Gen Cert.MlpSpec

/-! ## The operand indices of the 2000 x 128 by 128 x 128 product -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator at entry (p, q): row p of the left operand against column q of the right. -/
theorem matmul_at {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ j : Fin 128, a (ix2 p j) * b (ix2 j q) := by
  show FloatOps.matmul dot_S2000x128_S128x128_S2000x128_1_0_0_1_n_n none a b (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun ax => Fin.ext (by
    match ax with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun ax => Fin.ext (by
    match ax with
    | ⟨0, _⟩ => exact (rhs_0 _ _).trans hk
    | ⟨1, _⟩ => exact rhs_1 _ _)
  rw [el, er]

/-! ## The stored block -/

/-- Entry (p, q) of the block the body stores is the perceptron of row p of the node block and of the aggregated block. -/
theorem pay_apply (v0 v2 : Vec Ideal S2000x128 .f32) (v5 v8 : Vec Ideal S128x128 .f32) (v14 : Vec Ideal S128 .f32)
    (v21 : Vec Ideal S128x128 .f32) (v24 : Vec Ideal S128 .f32) (p : Fin 2000) (q : Fin 128) :
    k0_pay1 (F := Ideal) v0 v2 v5 v8 v14 v21 v24 (ix2 p q)
      = mlpRow (fun j => v0 (ix2 p j)) (fun j => v2 (ix2 p j)) v5 v8 v14 v21 v24 q := by
  unfold k0_pay1 mlpRow hiddenUnit
  dsimp only
  simp only [addf_apply, maximumf_apply, truncf_apply, matmul_at, broadcast_apply, broadcastTo_1b_ab_apply,
    shapeCast_a_1a_apply, shapeCast_self]
  rfl

end Cert.KernelIdeal.Body

end
-- ==== Proof.KernelMlp.lean ====
/-
  The kernel's result array is the perceptron `MlpSpec.mlp`.

  The call runs 25 grid points; point t works on node rows 2000 t … 2000 t + 1999. Its two row windows hold those rows
  of the node features and of the aggregated edge features (`xblk_apply`, `ablk_apply`); its five other windows hold,
  at every point, the whole of the first weight matrix's upper half, its lower half, the first bias, the second weight
  matrix and the second bias (`w1a_eq` … `b2_eq`: each is block (0, 0) of an array of the block's own size). The two
  halves are cut from the 256 x 128 matrix by the host before the call (`top_eq`, `bot_eq`). So the block point t
  stores is rows 2000 t … of `mlp` (`flushed_eq`), and since row r lies in the block of point r / 2000 the 25 blocks
  cover the result array (`cover`), which therefore ends holding `mlp` (`final`, `run`).
-/
import proofs.«134898_j824633721180_1_alg».proof.Proof.Gen.KernelIdeal.Value
import proofs.«134898_j824633721180_1_alg».proof.Proof.BodyMlp
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KernelMlp

open Cert.KernelIdeal Cert.KernelIdeal.Gen Cert.KernelIdeal.Value Cert.KernelIdeal.Body Cert.MlpSpec

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-! ## The index maps, decided over the 25 points -/

/-- The two row windows and the result window are at block (t, 0); every other window stays at its block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## Each window's block at a point -/

abbrev xblk (c : Dev nD) (t : Fin cfg0.N) : Vec Ideal S2000x128 .f32 := iblk m c 0 t
abbrev ablk (c : Dev nD) (t : Fin cfg0.N) : Vec Ideal S2000x128 .f32 := iblk m c 1 t
abbrev w1a (c : Dev nD) (t : Fin cfg0.N) : Vec Ideal S128x128 .f32 := iblk m c 2 t
abbrev w1b (c : Dev nD) (t : Fin cfg0.N) : Vec Ideal S128x128 .f32 := iblk m c 3 t
abbrev b1v (c : Dev nD) (t : Fin cfg0.N) : Vec Ideal S128 .f32 := iblk m c 4 t
abbrev w2 (c : Dev nD) (t : Fin cfg0.N) : Vec Ideal S128x128 .f32 := iblk m c 5 t
abbrev b2v (c : Dev nD) (t : Fin cfg0.N) : Vec Ideal S128 .f32 := iblk m c 6 t

/-- Row p of point t's node block is row 2000 t + p of the node features. -/
theorem xblk_apply (c : Dev nD) (t : Fin cfg0.N) (p : Fin 2000) (j : Fin 128) (R : Fin 50000) (hR : R.val = 2000 * t.val + p.val) :
    xblk m c t (ix2 p j) = (V m c main_arg0 : S50000x128.Idx → EReal) (ix2 R j) := by
  obtain ⟨e0, e1, -⟩ := idx_facts t
  unfold xblk iblk
  rw [View.read_apply]
  show V m c main_arg0 _ = V m c main_arg0 _
  congr 1
  funext a
  apply Fin.ext
  match a with
  | ⟨0, _⟩ => show win0_0.index t (0 : Fin 2) * 2000 + 1 * p.val = R.val; rw [e0, hR]; omega
  | ⟨1, _⟩ => show win0_0.index t (1 : Fin 2) * 128 + 1 * j.val = j.val; rw [e1]; omega

/-- Row p of point t's aggregated block is row 2000 t + p of the aggregated edge features. -/
theorem ablk_apply (c : Dev nD) (t : Fin cfg0.N) (p : Fin 2000) (j : Fin 128) (R : Fin 50000) (hR : R.val = 2000 * t.val + p.val) :
    ablk m c t (ix2 p j) = (V m c main_v4 : S50000x128.Idx → EReal) (ix2 R j) := by
  obtain ⟨-, -, e0, e1, -⟩ := idx_facts t
  unfold ablk iblk
  rw [View.read_apply]
  show V m c main_v4 _ = V m c main_v4 _
  congr 1
  funext a
  apply Fin.ext
  match a with
  | ⟨0, _⟩ => show win0_1.index t (0 : Fin 2) * 2000 + 1 * p.val = R.val; rw [e0, hR]; omega
  | ⟨1, _⟩ => show win0_1.index t (1 : Fin 2) * 128 + 1 * j.val = j.val; rw [e1]; omega

/-- The upper-half window holds the whole upper half at every point. -/
theorem w1a_eq (c : Dev nD) (t : Fin cfg0.N) : w1a m c t = (V m c main_v5 : S128x128.Idx → EReal) := by
  obtain ⟨-, -, -, -, e0, e1, -⟩ := idx_facts t
  funext y
  unfold w1a iblk
  rw [View.read_apply]
  show V m c main_v5 _ = V m c main_v5 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The lower-half window holds the whole lower half at every point. -/
theorem w1b_eq (c : Dev nD) (t : Fin cfg0.N) : w1b m c t = (V m c main_v6 : S128x128.Idx → EReal) := by
  obtain ⟨-, -, -, -, -, -, e0, e1, -⟩ := idx_facts t
  funext y
  unfold w1b iblk
  rw [View.read_apply]
  show V m c main_v6 _ = V m c main_v6 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The first bias's window holds the whole bias at every point. -/
theorem b1_eq (c : Dev nD) (t : Fin cfg0.N) : b1v m c t = (V m c main_arg6 : S128.Idx → EReal) := by
  obtain ⟨-, -, -, -, -, -, -, -, e0, -⟩ := idx_facts t
  funext y
  unfold b1v iblk
  rw [View.read_apply]
  show V m c main_arg6 _ = V m c main_arg6 _
  congr 1
  funext a
  apply Fin.ext
  match a with
  | ⟨0, _⟩ => show win0_4.index t (0 : Fin 1) * 128 + 1 * (y 0).val = (y 0).val; rw [e0]; omega

/-- The second weight matrix's window holds the whole matrix at every point. -/
theorem w2_eq (c : Dev nD) (t : Fin cfg0.N) : w2 m c t = (V m c main_arg7 : S128x128.Idx → EReal) := by
  obtain ⟨-, -, -, -, -, -, -, -, -, e0, e1, -⟩ := idx_facts t
  funext y
  unfold w2 iblk
  rw [View.read_apply]
  show V m c main_arg7 _ = V m c main_arg7 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The second bias's window holds the whole bias at every point. -/
theorem b2_eq (c : Dev nD) (t : Fin cfg0.N) : b2v m c t = (V m c main_arg8 : S128.Idx → EReal) := by
  obtain ⟨-, -, -, -, -, -, -, -, -, -, -, e0, -⟩ := idx_facts t
  funext y
  unfold b2v iblk
  rw [View.read_apply]
  show V m c main_arg8 _ = V m c main_arg8 _
  congr 1
  funext a
  apply Fin.ext
  match a with
  | ⟨0, _⟩ => show win0_6.index t (0 : Fin 1) * 128 + 1 * (y 0).val = (y 0).val; rw [e0]; omega

/-! ## What the host wrote before the call -/

/-- The aggregated edge features as the region finds them: the scatter-add of the edge features at the destination row
    of `edge_index`, into zeros. -/
theorem agg_eq (c : Dev nD) : (V m c main_v4 : S50000x128.Idx → EReal)
    = Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0
          (shapeCast _ (extractStridedSlice S1x600000 ![1, 0] (m ((c : Thread nD τ).loc main_arg1)) slices_S2x600000_S1x600000_1_0) shapeCasts_S1x600000_S600000))
        (m ((c : Thread nD τ).loc main_arg2)) := by
  dsimp only [V, hostOps0]; after_results <;> rfl

/-- The upper half of the first weight matrix, as the host cut it. -/
theorem top_eq (c : Dev nD) : (V m c main_v5 : S128x128.Idx → EReal) = topHalf (m ((c : Thread nD τ).loc main_arg5)) := by
  have e : (V m c main_v5 : S128x128.Idx → EReal)
      = extractStridedSlice S128x128 ![0, 0] (m ((c : Thread nD τ).loc main_arg5)) slices_S256x128_S128x128_0_0 := by
    dsimp only [V, hostOps0]; after_results <;> rfl
  rw [e]
  funext i
  obtain ⟨j, k, rfl⟩ : ∃ (j : Fin 128) (k : Fin 128), i = ix2 j k := ⟨i 0, i 1, eq_ix2 i⟩
  exact slice2_axis0_apply 0 _ slices_S256x128_S128x128_0_0 j k ⟨j.val, Nat.lt_trans j.isLt (by decide)⟩ (Nat.zero_add _).symm

/-- The lower half of the first weight matrix, as the host cut it. -/
theorem bot_eq (c : Dev nD) : (V m c main_v6 : S128x128.Idx → EReal) = botHalf (m ((c : Thread nD τ).loc main_arg5)) := by
  have e : (V m c main_v6 : S128x128.Idx → EReal)
      = extractStridedSlice S128x128 ![128, 0] (m ((c : Thread nD τ).loc main_arg5)) slices_S256x128_S128x128_128_0 := by
    dsimp only [V, hostOps0]; after_results <;> rfl
  rw [e]
  funext i
  obtain ⟨j, k, rfl⟩ : ∃ (j : Fin 128) (k : Fin 128), i = ix2 j k := ⟨i 0, i 1, eq_ix2 i⟩
  exact slice2_axis0_apply 128 _ slices_S256x128_S128x128_128_0 j k ⟨128 + j.val, by have := j.isLt; omega⟩ rfl

/-! ## The result array -/

/-- The perceptron of the launch contents: the node features, the aggregated edge features the host computed, the
    weights and the biases. -/
def result (c : Dev nD) : S50000x128.Idx → EReal :=
  mlp (m ((c : Thread nD τ).loc main_arg0)) (V m c main_v4) (m ((c : Thread nD τ).loc main_arg5))
    (m ((c : Thread nD τ).loc main_arg6)) (m ((c : Thread nD τ).loc main_arg7)) (m ((c : Thread nD τ).loc main_arg8))

/-- Where entry (p, q) of point t's block lies in the result array. -/
theorem emb7 (t : Fin cfg0.N) (p : Fin 2000) (q : Fin 128) (R : Fin 50000) (hR : R.val = 2000 * t.val + p.val) :
    ((cfg0.win 7).blk t).view.emb (ix2 p q) = (ix2 R q : S50000x128.Idx) := by
  obtain ⟨-, -, -, -, -, -, -, -, -, -, -, -, e0, e1⟩ := idx_facts t
  funext a
  apply Fin.ext
  match a with
  | ⟨0, _⟩ => show win0_7.index t (0 : Fin 2) * 2000 + 1 * p.val = R.val; rw [e0, hR]; omega
  | ⟨1, _⟩ => show win0_7.index t (1 : Fin 2) * 128 + 1 * q.val = q.val; rw [e1]; omega

/-- What point t writes back is its block of `result`. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S2000x128) hz, View.ld_unit_zero (S := S128x128) hz, View.ld_unit_zero (S := S128) hz1]
  funext y
  obtain ⟨p, q, rfl⟩ : ∃ (p : Fin 2000) (q : Fin 128), y = ix2 p q := ⟨y 0, y 1, eq_ix2 y⟩
  have hN : cfg0.N = 25 := N_0
  have hR : 2000 * t.val + p.val < 50000 := by have := t.isLt; have := p.isLt; omega
  show k0_pay1 (F := Ideal) (xblk m c t) (ablk m c t) (w1a m c t) (w1b m c t) (b1v m c t) (w2 m c t) (b2v m c t) (ix2 p q)
    = result m c (((cfg0.win 7).blk t).view.emb (ix2 p q))
  rw [emb7 t p q ⟨2000 * t.val + p.val, hR⟩ rfl]
  refine (pay_apply (xblk m c t) (ablk m c t) (w1a m c t) (w1b m c t) (b1v m c t) (w2 m c t) (b2v m c t) p q).trans ?_
  unfold result
  rw [mlp_ix2, w1a_eq, w1b_eq, b1_eq, w2_eq, b2_eq, top_eq, bot_eq, V_main_arg6, V_main_arg7, V_main_arg8]
  have ex : (fun j : Fin 128 => xblk m c t (ix2 p j))
      = fun j : Fin 128 => (m ((c : Thread nD τ).loc main_arg0) : S50000x128.Idx → EReal) (ix2 (⟨2000 * t.val + p.val, hR⟩ : Fin 50000) j) :=
    funext fun j => by rw [xblk_apply m c t p j ⟨2000 * t.val + p.val, hR⟩ rfl, V_main_arg0]
  have ea : (fun j : Fin 128 => ablk m c t (ix2 p j))
      = fun j : Fin 128 => (V m c main_v4 : S50000x128.Idx → EReal) (ix2 (⟨2000 * t.val + p.val, hR⟩ : Fin 50000) j) :=
    funext fun j => ablk_apply m c t p j ⟨2000 * t.val + p.val, hR⟩ rfl
  rw [ex, ea]

/-- An index of the result array is in point t's block iff each coordinate is in the block's range. -/
theorem mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v7).slice (win0_7.rect t)).set ↔ _
  rw [View.set_slice_whole, Rect.mem_set_unit]
  exact Iff.rfl

/-- Row r is in the block of point r / 2000: the 25 blocks cover the array. -/
theorem cover (i : S50000x128.Idx) : ∃ t : Fin cfg0.N, (cfg0.win 7).flush t = true ∧ i ∈ ((cfg0.win 7).blk t).view.set := by
  have h0 : (i 0).val < 50000 := idx2_lt0 i
  have h1 : (i 1).val < 128 := idx2_lt1 i
  have hN : cfg0.N = 25 := N_0
  have hq : (i 0).val / 2000 < cfg0.N := by rw [hN]; omega
  refine ⟨⟨(i 0).val / 2000, hq⟩, flush0_7 _, ?_⟩
  rw [mem_blk]
  obtain ⟨-, -, -, -, -, -, -, -, -, -, -, -, e0, e1⟩ := idx_facts ⟨(i 0).val / 2000, hq⟩
  intro a
  match a with
  | ⟨0, _⟩ =>
    show win0_7.index ⟨(i 0).val / 2000, hq⟩ (0 : Fin 2) * 2000 ≤ (i 0).val ∧ (i 0).val < win0_7.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, hq⟩ (1 : Fin 2) * 128 ≤ (i 1).val ∧ (i 1).val < win0_7.index ⟨(i 0).val / 2000, hq⟩ (1 : Fin 2) * 128 + 128
    rw [e1]; omega

/-- The result array after the run. -/
theorem final (c : Dev nD) : (dats m 0 c).arrAt 7 cfg0.N = result m c :=
  (dats m 0 c).arrAt_eq_of_cover 7 (result m c) (fun t _ => flushed_eq m c t) cover

/-- The run, read: the result array at the perceptron of the launch contents, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (run_blocks m ρ)

end Cert.KernelIdeal.KernelMlp

end
-- ==== Proof.RefMlp.lean ====
/-
  The reference program is the perceptron `MlpSpec.mlp`.

  The reference joins each node's own features and its aggregated edge features into one row of 256, multiplies by the
  whole 256 x 128 matrix, adds the bias, clips at zero, multiplies by the second matrix and adds the second bias. The
  product over 256 indices is cut in the middle (`MlpSpec.sum_halves`): on the first 128 indices the joined row is the
  node's own row and the matrix its upper half, on the last 128 the aggregated row and the lower half. What the
  aggregated features ARE (a scatter-add of the edge features) is never opened: they are the same term on both sides.
-/
import proofs.«134898_j824633721180_1_alg».proof.Proof.Gen.ReferenceIdeal.Read
import proofs.«134898_j824633721180_1_alg».proof.Proof.MlpSpec

noncomputable section

open scoped BigOperators
open Idealize.ShloMosaic Idealize.ShloMosaic.ValueIdx

namespace Cert.ReferenceIdeal.RefMlp

open Cert.ReferenceIdeal Cert.ReferenceIdeal.Gen Cert.ReferenceIdeal.Read Cert.MlpSpec

variable (x0 : (⟨S50000x128, .f32⟩ : BufTy).Contents (Elt Ideal)) (x1 : (⟨S2x600000, .i32⟩ : BufTy).Contents (Elt Ideal))
  (x2 : (⟨S600000x128, .f32⟩ : BufTy).Contents (Elt Ideal)) (x5 : (⟨S256x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal))

/-- Hidden unit k of node r, as the reference computes it. -/
theorem ref_hidden (r : Fin 50000) (k : Fin 128) :
    val_main_v10 (F := Ideal) x0 x1 x2 x5 x6 (ix2 r k)
      = hiddenUnit (fun j => x0 (ix2 r j)) (fun j => val_main_v4 (F := Ideal) x1 x2 (ix2 r j)) (topHalf x5) (botHalf x5) x6 k := by
  rw [val_main_v10_apply, val_main_v9_apply, val_main_v6_apply, val_main_v8_apply, val_main_v7_apply,
    val_main_call0_v0_apply, val_main_call0_cst_apply, sum_halves]
  unfold hiddenUnit
  have eL : ∀ j : Fin 128, val_main_v5 (F := Ideal) x0 x1 x2 (lidx_main_v6 (ix2 r k) ⟨j.val, Nat.lt_trans j.isLt (by decide)⟩) = x0 (ix2 r j) :=
    fun j => joined_left _ _ _ _ r j rfl rfl
  have eR : ∀ j : Fin 128, val_main_v5 (F := Ideal) x0 x1 x2 (lidx_main_v6 (ix2 r k) ⟨128 + j.val, by have := j.isLt; omega⟩) = val_main_v4 (F := Ideal) x1 x2 (ix2 r j) :=
    fun j => joined_right _ _ _ _ r j rfl rfl
  have eT : ∀ j : Fin 128, x5 (ridx_main_v6 (ix2 r k) ⟨j.val, Nat.lt_trans j.isLt (by decide)⟩) = topHalf x5 (ix2 j k) :=
    fun j => congrArg x5 (funext fun a => Fin.ext (by match a with | ⟨0, _⟩ => rfl | ⟨1, _⟩ => rfl))
  have eB : ∀ j : Fin 128, x5 (ridx_main_v6 (ix2 r k) ⟨128 + j.val, by have := j.isLt; omega⟩) = botHalf x5 (ix2 j k) :=
    fun j => congrArg x5 (funext fun a => Fin.ext (by match a with | ⟨0, _⟩ => rfl | ⟨1, _⟩ => rfl))
  have eb : x6 (idx_main_v7 (idx_main_v8 (ix2 r k))) = x6 (ix1 k) :=
    congrArg x6 (funext fun a => Fin.ext (by match a with | ⟨0, _⟩ => rfl))
  simp only [eL, eR, eT, eB, eb]
  rfl

/-- Output unit q of node r, as the reference computes it. -/
theorem ref_apply (r : Fin 50000) (q : Fin 128) :
    val_main_v14 (F := Ideal) x0 x1 x2 x5 x6 x7 x8 (ix2 r q)
      = mlpRow (fun j => x0 (ix2 r j)) (fun j => val_main_v4 (F := Ideal) x1 x2 (ix2 r j)) (topHalf x5) (botHalf x5) x6 x7 x8 q := by
  rw [val_main_v14_apply, val_main_v11_apply, val_main_v13_apply, val_main_v12_apply]
  unfold mlpRow
  have e1 : ∀ k : Fin 128, lidx_main_v11 (ix2 r q) k = ix2 r k :=
    fun k => funext fun a => Fin.ext (by match a with | ⟨0, _⟩ => rfl | ⟨1, _⟩ => rfl)
  have e2 : ∀ k : Fin 128, ridx_main_v11 (ix2 r q) k = ix2 k q :=
    fun k => funext fun a => Fin.ext (by match a with | ⟨0, _⟩ => rfl | ⟨1, _⟩ => rfl)
  have e3 : idx_main_v12 (idx_main_v13 (ix2 r q)) = ix1 q :=
    funext fun a => Fin.ext (by match a with | ⟨0, _⟩ => rfl)
  simp only [e1, e2, e3, ref_hidden]
  rfl

/-- The reference's result array is the perceptron of the node features and the aggregated edge features. -/
theorem ref_eq :
    val_main_v14 (F := Ideal) x0 x1 x2 x5 x6 x7 x8 = mlp x0 (val_main_v4 (F := Ideal) x1 x2) x5 x6 x7 x8 := by
  funext i
  obtain ⟨r, q, rfl⟩ : ∃ (r : Fin 50000) (q : Fin 128), i = ix2 r q := ⟨i 0, i 1, eq_ix2 i⟩
  rw [ref_apply, mlp_ix2]

end Cert.ReferenceIdeal.RefMlp

end
-- ==== Proof.lean ====
/-
  A graph network's node update: each node's incoming edge features are summed into the node (a scatter-add), the sum
  is set beside the node's own features, and the 256 numbers go through a two-layer perceptron with a clip at zero
  between the layers. The reference does literally that: join, multiply by the 256 x 128 matrix, bias, clip, multiply
  by the 128 x 128 matrix, bias. The kernel never joins: its host code cuts the first matrix into its upper and lower
  128 rows, and the call, 2000 nodes at a time, multiplies the node's own features by the upper half and the summed
  edge features by the lower half and adds the two products.

  Over the extended reals the two agree entry by entry, because a sum of 256 products is the sum of its first 128 terms
  plus the sum of its last 128 (`MlpSpec.sum_halves`): only associativity and commutativity of addition, which hold at
  the infinities too, so the finiteness of the inputs is never used. The kernel's narrowing of its matrix operands to a
  shorter float format is the identity on extended reals, and its products into a zero accumulator are plain sums.
  The scatter-add that aggregates the edge features is the same operation with the same operands in both programs and
  is never opened.

  `MlpSpec` states the perceptron; `RefMlp` shows the reference computes it, `BodyMlp` that the kernel body stores
  it block by block, `KernelMlp` that the 25 blocks make up the whole result array. No operation of the kernel was rewritten
  for its idealized reading: the idealized kernel is the kernel's own text read on the extended reals.
-/
import proofs.«134898_j824633721180_1_alg».proof.Defs
import proofs.«134898_j824633721180_1_alg».proof.Proof.Gen.Kernel
import proofs.«134898_j824633721180_1_alg».proof.Proof.Gen.Kernel.Skeleton
import proofs.«134898_j824633721180_1_alg».proof.Proof.Gen.Kernel.Launch
import proofs.«134898_j824633721180_1_alg».proof.Proof.Gen.Kernel.Points
import proofs.«134898_j824633721180_1_alg».proof.Proof.Gen.Kernel.Frame
import proofs.«134898_j824633721180_1_alg».proof.Proof.Gen.KernelIdeal
import proofs.«134898_j824633721180_1_alg».proof.Proof.Gen.KernelIdeal.Skeleton
import proofs.«134898_j824633721180_1_alg».proof.Proof.Gen.KernelIdeal.Launch
import proofs.«134898_j824633721180_1_alg».proof.Proof.Gen.KernelIdeal.Points
import proofs.«134898_j824633721180_1_alg».proof.Proof.Gen.KernelIdeal.Frame
import proofs.«134898_j824633721180_1_alg».proof.Proof.Gen.ReferenceIdeal
import proofs.«134898_j824633721180_1_alg».proof.Proof.Gen.Pre_finite_inputs
import proofs.«134898_j824633721180_1_alg».proof.Proof.Gen.KernelIdeal.Value
import proofs.«134898_j824633721180_1_alg».proof.Proof.Gen.ReferenceIdeal.Run
import proofs.«134898_j824633721180_1_alg».proof.Proof.Gen.ReferenceIdeal.Read
import proofs.«134898_j824633721180_1_alg».proof.Proof.KernelMlp
import proofs.«134898_j824633721180_1_alg».proof.Proof.RefMlp
import Idealize.ShloMosaic.Adequacy
import Idealize.ShloMosaic.Init

noncomputable section

namespace Cert.Proof

open Idealize.ShloMosaic Idealize.SL.Sem

/-- The kernel, read word by word: it runs and leaves its arguments as they were. -/
theorem frame_kernel : Cert.frame_Kernel := fun m ρ _ => Cert.Kernel.Gen.frame m ρ

/-- The kernel on the extended reals: the same. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- Both programs end with the perceptron of the node features, the aggregated edge features, the weights and the
    biases: the kernel by `KernelMlp.run`, the reference by `RefMlp.ref_eq`; the aggregated edge features are the
    same scatter-add of the same arguments on both sides. -/
theorem algebraic : Cert.algebraic_KernelIdeal_ReferenceIdeal := by
  intro m ρ m' ρ' _ hagree
  refine ⟨fun c => Cert.KernelIdeal.KernelMlp.result m c, Cert.KernelIdeal.KernelMlp.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, -, a5, a6, a7, a8⟩ := hagree c
  rw [Cert.ReferenceIdeal.Read.val_main_v14_eq, Cert.ReferenceIdeal.RefMlp.ref_eq, a0, a1, a2, a5, a6, a7, a8]
  show _ = Cert.KernelIdeal.KernelMlp.result m c
  unfold Cert.KernelIdeal.KernelMlp.result
  rw [Cert.KernelIdeal.KernelMlp.agg_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
